-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S1048576 : Shape := ⟨1, ![1048576]⟩
abbrev S4096 : Shape := ⟨1, ![4096]⟩
abbrev S54012x256 : Shape := ⟨2, ![54012, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S512x256 : Shape := ⟨2, ![512, 256]⟩
abbrev S_ : Shape := ⟨0, ![]⟩

class Facts : Prop where
  bcast_S_S54012x256 : S_.BroadcastsInDim S54012x256 (![] : Fin 0 → Fin S54012x256.rank)
  reducesTo_S54012x256_S_d0_1 : S54012x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg9 : FVec F S256 .f32) (main_arg10 : FVec F S512x256 .f32) (main_arg11 : FVec F S256 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg9
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg10
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : IVec S65536 32) (main_arg1 : IVec S1048576 32) (main_arg2 : IVec S1048576 32) (main_arg3 : IVec S4096 32) (main_arg4 : IVec S4096 32) (main_arg5 : FVec F S54012x256 .f32) (main_arg6 : FVec F S256x32 .f32) (main_arg7 : FVec F S32 .f32) (main_arg8 : FVec F S32x256 .f32) (main_arg9 : FVec F S256 .f32) (main_arg10 : FVec F S512x256 .f32) (main_arg11 : FVec F S256 .f32) : IVec S_ 1 :=
  let main_v0 : FVec F S54012x256 .f32 := Host.absf main_arg5
  let main_cst : FVec F S_ .f32 := constant S_ .f32 0x7F800000#32
  let main_v1 : FVec F S54012x256 .f32 := broadcastInDim S54012x256 ![] bcast_S_S54012x256 main_cst
  let main_v2 : IVec S54012x256 1 := cmpf .olt main_v0 main_v1
  let main_c : IVec S_ 1 := constantI S_ 1 1#1
  let main_v3 : IVec S_ 1 := (fun x v => Host.reduce IntOp.andi x v reducesTo_S54012x256_S_d0_1 h_S_) main_v2 main_c
  let main_v4 : FVec F S256x32 .f32 := Host.absf main_arg6
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg7
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg8
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg9 main_arg10 main_arg11 main_v13 main_v16
-- ==== Kernel.lean ====
abbrev S65536 : Shape := ⟨1, ![65536]⟩
abbrev S1048576 : Shape := ⟨1, ![1048576]⟩
abbrev S4096 : Shape := ⟨1, ![4096]⟩
abbrev S54012x256 : Shape := ⟨2, ![54012, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S512x256 : Shape := ⟨2, ![512, 256]⟩
abbrev S_ : Shape := ⟨0, ![]⟩
abbrev S65536x1 : Shape := ⟨2, ![65536, 1]⟩
abbrev S65536x256 : Shape := ⟨2, ![65536, 256]⟩
abbrev S1048576x1 : Shape := ⟨2, ![1048576, 1]⟩
abbrev S1048576x256 : Shape := ⟨2, ![1048576, 256]⟩
abbrev S1x32 : Shape := ⟨2, ![1, 32]⟩
abbrev S65536x32 : Shape := ⟨2, ![65536, 32]⟩
abbrev S4096x256 : Shape := ⟨2, ![4096, 256]⟩
abbrev S4096x32 : Shape := ⟨2, ![4096, 32]⟩
abbrev S1048576x32 : Shape := ⟨2, ![1048576, 32]⟩
abbrev S1x256 : Shape := ⟨2, ![1, 256]⟩
abbrev S4096x1 : Shape := ⟨2, ![4096, 1]⟩
abbrev S4096x512 : Shape := ⟨2, ![4096, 512]⟩
abbrev S1024x512 : Shape := ⟨2, ![1024, 512]⟩
abbrev S1024x256 : Shape := ⟨2, ![1024, 256]⟩

abbrev nBuf : Space → Nat
  | .hbm => 72
  | .vmem => 18
  | .smem => 0
  | _ => 0

abbrev bufTy : (tb : Table) → Fin (tcTables nBuf tb) → BufTy
  | .hbm, ⟨0, _⟩ => ⟨S65536, .i32⟩
  | .hbm, ⟨1, _⟩ => ⟨S1048576, .i32⟩
  | .hbm, ⟨2, _⟩ => ⟨S1048576, .i32⟩
  | .hbm, ⟨3, _⟩ => ⟨S4096, .i32⟩
  | .hbm, ⟨4, _⟩ => ⟨S4096, .i32⟩
  | .hbm, ⟨5, _⟩ => ⟨S54012x256, .f32⟩
  | .hbm, ⟨6, _⟩ => ⟨S256x32, .f32⟩
  | .hbm, ⟨7, _⟩ => ⟨S32, .f32⟩
  | .hbm, ⟨8, _⟩ => ⟨S32x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S_, .i32⟩
  | .hbm, ⟨13, _⟩ => ⟨S65536, .i32⟩
  | .hbm, ⟨14, _⟩ => ⟨S65536, .i1⟩
  | .hbm, ⟨15, _⟩ => ⟨S_, .i32⟩
  | .hbm, ⟨16, _⟩ => ⟨S65536, .i32⟩
  | .hbm, ⟨17, _⟩ => ⟨S65536, .i32⟩
  | .hbm, ⟨18, _⟩ => ⟨S65536, .i32⟩
  | .hbm, ⟨19, _⟩ => ⟨S65536x1, .i32⟩
  | .hbm, ⟨20, _⟩ => ⟨S65536x256, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x256, .f32⟩
  | .hbm, ⟨30, _⟩ => ⟨S_, .f32⟩
  | .hbm, ⟨31, _⟩ => ⟨S65536x256, .f32⟩
  | .hbm, ⟨32, _⟩ => ⟨S1048576x1, .i32⟩
  | .hbm, ⟨33, _⟩ => ⟨S65536x256, .f32⟩
  | .hbm, ⟨34, _⟩ => ⟨S1x32, .f32⟩
  | .hbm, ⟨35, _⟩ => ⟨S65536x32, .f32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S1048576x1, .i32⟩
  | .hbm, ⟨44, _⟩ => ⟨S1048576x32, .f32⟩
  | .hbm, ⟨45, _⟩ => ⟨S_, .f32⟩
  | .hbm, ⟨46, _⟩ => ⟨S65536x32, .f32⟩
  | .hbm, ⟨47, _⟩ => ⟨S1048576x1, .i32⟩
  | .hbm, ⟨48, _⟩ => ⟨S65536x32, .f32⟩
  | .hbm, ⟨49, _⟩ => ⟨S1x256, .f32⟩
  | .hbm, ⟨50, _⟩ => ⟨S65536x256, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x256, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x256, .f32⟩
  | .hbm, ⟨69, _⟩ => ⟨S4096x512, .f32⟩
  | .hbm, ⟨70, _⟩ => ⟨S1x256, .f32⟩
  | .hbm, ⟨71, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S256x32, .f32⟩
  | .local _ .vmem, ⟨3, _⟩ => ⟨S1x32, .f32⟩
  | .local _ .vmem, ⟨4, _⟩ => ⟨S4096x32, .f32⟩
  | .local _ .vmem, ⟨5, _⟩ => ⟨S4096x32, .f32⟩
  | .local _ .vmem, ⟨6, _⟩ => ⟨S4096x32, .f32⟩
  | .local _ .vmem, ⟨7, _⟩ => ⟨S4096x32, .f32⟩
  | .local _ .vmem, ⟨8, _⟩ => ⟨S32x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S1024x512, .f32⟩
  | .local _ .vmem, ⟨13, _⟩ => ⟨S1024x512, .f32⟩
  | .local _ .vmem, ⟨14, _⟩ => ⟨S512x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x256 : S_.BroadcastsInDim S65536x256 (![] : Fin 0 → Fin S65536x256.rank)
  shapeCasts_S32_S1x32 : S32.ShapeCasts S1x32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  bcast_S_S65536x32 : S_.BroadcastsInDim S65536x32 (![] : Fin 0 → Fin S65536x32.rank)
  shapeCasts_S256_S1x256 : S256.ShapeCasts S1x256
  shapeCasts_S4096x32_S4096x32 : S4096x32.ShapeCasts S4096x32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x256_S4096x512_d1 : Shape.Concatenates [S4096x256, S4096x256] S4096x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  gather_S54012x256_S65536x1_S65536x256_1_0_n_n_0_1_1256_wf : GatherDims.WF S54012x256 S65536x1 S65536x256 [1] [0] [] [0] [] 1 ![1, 256]
  gather_S65536x256_S1048576x1_S1048576x256_1_0_n_n_0_1_1256_wf : GatherDims.WF S65536x256 S1048576x1 S1048576x256 [1] [0] [] [0] [] 1 ![1, 256]
  scatter_S65536x256_S1048576x1_S1048576x256_1_0_0_1_wf : ScatterDims.WF S65536x256 S1048576x1 S1048576x256 [1] [0] [0] 1
  dot_S4096x256_S256x32_S4096x32_1_0_0_1_n_n_wf : DotDims.WF S4096x256 S256x32 S4096x32 [1] [0] [0] [1] [] []
  gather_S65536x32_S1048576x1_S1048576x32_1_0_n_n_0_1_132_wf : GatherDims.WF S65536x32 S1048576x1 S1048576x32 [1] [0] [] [0] [] 1 ![1, 32]
  scatter_S65536x32_S1048576x1_S1048576x32_1_0_0_1_wf : ScatterDims.WF S65536x32 S1048576x1 S1048576x32 [1] [0] [0] 1
  dot_S4096x32_S32x256_S4096x256_1_0_0_1_n_n_wf : DotDims.WF S4096x32 S32x256 S4096x256 [1] [0] [0] [1] [] []
  gather_S65536x256_S4096x1_S4096x256_1_0_n_n_0_1_1256_wf : GatherDims.WF S65536x256 S4096x1 S4096x256 [1] [0] [] [0] [] 1 ![1, 256]
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S65536x32.size a
  hwx0_3 : ∀ i : grid0.Coords, EltTy.bits .f32 = 32 ∨ (Rect.block (s := S65536x32) S4096x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S65536x32.size a
  hwx1_0 : ∀ i : grid1.Coords, EltTy.bits .f32 = 32 ∨ (Rect.block (s := S65536x32) S4096x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S65536x256.size a
  hwx1_3 : ∀ i : grid1.Coords, EltTy.bits .f32 = 32 ∨ (Rect.block (s := S65536x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .f32 = 32 ∨ (Rect.block (s := S4096x256) S1024x256.size (cc2_transform_3 i) (hinb2_3 i)).WholeWords (EltTy.packing .f32)

variable [Facts₀]

def gather_S54012x256_S65536x1_S65536x256_1_0_n_n_0_1_1256 : GatherDims S54012x256 S65536x1 S65536x256 where
  offsetDims := [1]
  collapsedSliceDims := [0]
  operandBatchingDims := []
  startIndicesBatchingDims := []
  startIndexMap := [0]
  indexVectorDim := 1
  sliceSizes := ![1, 256]
  wf := gather_S54012x256_S65536x1_S65536x256_1_0_n_n_0_1_1256_wf
def gather_S65536x256_S1048576x1_S1048576x256_1_0_n_n_0_1_1256 : GatherDims S65536x256 S1048576x1 S1048576x256 where
  offsetDims := [1]
  collapsedSliceDims := [0]
  operandBatchingDims := []
  startIndicesBatchingDims := []
  startIndexMap := [0]
  indexVectorDim := 1
  sliceSizes := ![1, 256]
  wf := gather_S65536x256_S1048576x1_S1048576x256_1_0_n_n_0_1_1256_wf
def scatter_S65536x256_S1048576x1_S1048576x256_1_0_0_1 : ScatterDims S65536x256 S1048576x1 S1048576x256 where
  updateWindowDims := [1]
  insertedWindowDims := [0]
  scatterDimsToOperandDims := [0]
  indexVectorDim := 1
  wf := scatter_S65536x256_S1048576x1_S1048576x256_1_0_0_1_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def gather_S65536x32_S1048576x1_S1048576x32_1_0_n_n_0_1_132 : GatherDims S65536x32 S1048576x1 S1048576x32 where
  offsetDims := [1]
  collapsedSliceDims := [0]
  operandBatchingDims := []
  startIndicesBatchingDims := []
  startIndexMap := [0]
  indexVectorDim := 1
  sliceSizes := ![1, 32]
  wf := gather_S65536x32_S1048576x1_S1048576x32_1_0_n_n_0_1_132_wf
def scatter_S65536x32_S1048576x1_S1048576x32_1_0_0_1 : ScatterDims S65536x32 S1048576x1 S1048576x32 where
  updateWindowDims := [1]
  insertedWindowDims := [0]
  scatterDimsToOperandDims := [0]
  indexVectorDim := 1
  wf := scatter_S65536x32_S1048576x1_S1048576x32_1_0_0_1_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def gather_S65536x256_S4096x1_S4096x256_1_0_n_n_0_1_1256 : GatherDims S65536x256 S4096x1 S4096x256 where
  offsetDims := [1]
  collapsedSliceDims := [0]
  operandBatchingDims := []
  startIndicesBatchingDims := []
  startIndexMap := [0]
  indexVectorDim := 1
  sliceSizes := ![1, 256]
  wf := gather_S65536x256_S4096x1_S4096x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v16) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4096x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S65536 : Shape := ⟨1, ![65536]⟩
abbrev S1048576 : Shape := ⟨1, ![1048576]⟩
abbrev S4096 : Shape := ⟨1, ![4096]⟩
abbrev S54012x256 : Shape := ⟨2, ![54012, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S512x256 : Shape := ⟨2, ![512, 256]⟩
abbrev S_ : Shape := ⟨0, ![]⟩
abbrev S65536x1 : Shape := ⟨2, ![65536, 1]⟩
abbrev S65536x256 : Shape := ⟨2, ![65536, 256]⟩
abbrev S1048576x1 : Shape := ⟨2, ![1048576, 1]⟩
abbrev S1048576x256 : Shape := ⟨2, ![1048576, 256]⟩
abbrev S65536x32 : Shape := ⟨2, ![65536, 32]⟩
abbrev S1x32 : Shape := ⟨2, ![1, 32]⟩
abbrev S1048576x32 : Shape := ⟨2, ![1048576, 32]⟩
abbrev S1x256 : Shape := ⟨2, ![1, 256]⟩
abbrev S4096x1 : Shape := ⟨2, ![4096, 1]⟩
abbrev S4096x256 : Shape := ⟨2, ![4096, 256]⟩
abbrev S4096x512 : Shape := ⟨2, ![4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S65536, .i32⟩
  | .hbm, ⟨1, _⟩ => ⟨S1048576, .i32⟩
  | .hbm, ⟨2, _⟩ => ⟨S1048576, .i32⟩
  | .hbm, ⟨3, _⟩ => ⟨S4096, .i32⟩
  | .hbm, ⟨4, _⟩ => ⟨S4096, .i32⟩
  | .hbm, ⟨5, _⟩ => ⟨S54012x256, .f32⟩
  | .hbm, ⟨6, _⟩ => ⟨S256x32, .f32⟩
  | .hbm, ⟨7, _⟩ => ⟨S32, .f32⟩
  | .hbm, ⟨8, _⟩ => ⟨S32x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S_, .i32⟩
  | .hbm, ⟨13, _⟩ => ⟨S65536, .i32⟩
  | .hbm, ⟨14, _⟩ => ⟨S65536, .i1⟩
  | .hbm, ⟨15, _⟩ => ⟨S_, .i32⟩
  | .hbm, ⟨16, _⟩ => ⟨S65536, .i32⟩
  | .hbm, ⟨17, _⟩ => ⟨S65536, .i32⟩
  | .hbm, ⟨18, _⟩ => ⟨S65536, .i32⟩
  | .hbm, ⟨19, _⟩ => ⟨S65536x1, .i32⟩
  | .hbm, ⟨20, _⟩ => ⟨S65536x256, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x256, .f32⟩
  | .hbm, ⟨30, _⟩ => ⟨S_, .f32⟩
  | .hbm, ⟨31, _⟩ => ⟨S65536x256, .f32⟩
  | .hbm, ⟨32, _⟩ => ⟨S1048576x1, .i32⟩
  | .hbm, ⟨33, _⟩ => ⟨S65536x256, .f32⟩
  | .hbm, ⟨34, _⟩ => ⟨S65536x32, .f32⟩
  | .hbm, ⟨35, _⟩ => ⟨S1x32, .f32⟩
  | .hbm, ⟨36, _⟩ => ⟨S65536x32, .f32⟩
  | .hbm, ⟨37, _⟩ => ⟨S65536x32, .f32⟩
  | .hbm, ⟨38, _⟩ => ⟨S_, .f32⟩
  | .hbm, ⟨39, _⟩ => ⟨S65536x32, .f32⟩
  | .hbm, ⟨40, _⟩ => ⟨S65536x32, .f32⟩
  | .hbm, ⟨41, _⟩ => ⟨S_, .i32⟩
  | .hbm, ⟨42, _⟩ => ⟨S1048576, .i32⟩
  | .hbm, ⟨43, _⟩ => ⟨S1048576, .i1⟩
  | .hbm, ⟨44, _⟩ => ⟨S_, .i32⟩
  | .hbm, ⟨45, _⟩ => ⟨S1048576, .i32⟩
  | .hbm, ⟨46, _⟩ => ⟨S1048576, .i32⟩
  | .hbm, ⟨47, _⟩ => ⟨S1048576, .i32⟩
  | .hbm, ⟨48, _⟩ => ⟨S1048576x1, .i32⟩
  | .hbm, ⟨49, _⟩ => ⟨S1048576x32, .f32⟩
  | .hbm, ⟨50, _⟩ => ⟨S_, .f32⟩
  | .hbm, ⟨51, _⟩ => ⟨S65536x32, .f32⟩
  | .hbm, ⟨52, _⟩ => ⟨S1048576x1, .i32⟩
  | .hbm, ⟨53, _⟩ => ⟨S65536x32, .f32⟩
  | .hbm, ⟨54, _⟩ => ⟨S65536x256, .f32⟩
  | .hbm, ⟨55, _⟩ => ⟨S1x256, .f32⟩
  | .hbm, ⟨56, _⟩ => ⟨S65536x256, .f32⟩
  | .hbm, ⟨57, _⟩ => ⟨S65536x256, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x256, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x256, .f32⟩
  | .hbm, ⟨76, _⟩ => ⟨S4096x512, .f32⟩
  | .hbm, ⟨77, _⟩ => ⟨S4096x256, .f32⟩
  | .hbm, ⟨78, _⟩ => ⟨S1x256, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096x256, .f32⟩
  | .hbm, ⟨83, _⟩ => ⟨S4096x256, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x256 : S_.BroadcastsInDim S65536x256 (![] : Fin 0 → Fin S65536x256.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x256_S4096x512_d1 : Shape.Concatenates [S4096x256, S4096x256] S4096x512 1
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  gather_S54012x256_S65536x1_S65536x256_1_0_n_n_0_1_1256_wf : GatherDims.WF S54012x256 S65536x1 S65536x256 [1] [0] [] [0] [] 1 ![1, 256]
  gather_S65536x256_S1048576x1_S1048576x256_1_0_n_n_0_1_1256_wf : GatherDims.WF S65536x256 S1048576x1 S1048576x256 [1] [0] [] [0] [] 1 ![1, 256]
  scatter_S65536x256_S1048576x1_S1048576x256_1_0_0_1_wf : ScatterDims.WF S65536x256 S1048576x1 S1048576x256 [1] [0] [0] 1
  dot_S65536x256_S256x32_S65536x32_1_0_0_1_n_n_wf : DotDims.WF S65536x256 S256x32 S65536x32 [1] [0] [0] [1] [] []
  gather_S65536x32_S1048576x1_S1048576x32_1_0_n_n_0_1_132_wf : GatherDims.WF S65536x32 S1048576x1 S1048576x32 [1] [0] [] [0] [] 1 ![1, 32]
  scatter_S65536x32_S1048576x1_S1048576x32_1_0_0_1_wf : ScatterDims.WF S65536x32 S1048576x1 S1048576x32 [1] [0] [0] 1
  dot_S65536x32_S32x256_S65536x256_1_0_0_1_n_n_wf : DotDims.WF S65536x32 S32x256 S65536x256 [1] [0] [0] [1] [] []
  gather_S65536x256_S4096x1_S4096x256_1_0_n_n_0_1_1256_wf : GatherDims.WF S65536x256 S4096x1 S4096x256 [1] [0] [] [0] [] 1 ![1, 256]
  dot_S4096x512_S512x256_S4096x256_1_0_0_1_n_n_wf : DotDims.WF S4096x512 S512x256 S4096x256 [1] [0] [0] [1] [] []

variable [Facts₀]

def gather_S54012x256_S65536x1_S65536x256_1_0_n_n_0_1_1256 : GatherDims S54012x256 S65536x1 S65536x256 where
  offsetDims := [1]
  collapsedSliceDims := [0]
  operandBatchingDims := []
  startIndicesBatchingDims := []
  startIndexMap := [0]
  indexVectorDim := 1
  sliceSizes := ![1, 256]
  wf := gather_S54012x256_S65536x1_S65536x256_1_0_n_n_0_1_1256_wf
def gather_S65536x256_S1048576x1_S1048576x256_1_0_n_n_0_1_1256 : GatherDims S65536x256 S1048576x1 S1048576x256 where
  offsetDims := [1]
  collapsedSliceDims := [0]
  operandBatchingDims := []
  startIndicesBatchingDims := []
  startIndexMap := [0]
  indexVectorDim := 1
  sliceSizes := ![1, 256]
  wf := gather_S65536x256_S1048576x1_S1048576x256_1_0_n_n_0_1_1256_wf
def scatter_S65536x256_S1048576x1_S1048576x256_1_0_0_1 : ScatterDims S65536x256 S1048576x1 S1048576x256 where
  updateWindowDims := [1]
  insertedWindowDims := [0]
  scatterDimsToOperandDims := [0]
  indexVectorDim := 1
  wf := scatter_S65536x256_S1048576x1_S1048576x256_1_0_0_1_wf
def dot_S65536x256_S256x32_S65536x32_1_0_0_1_n_n : DotDims S65536x256 S256x32 S65536x32 where
  lhsContracting := [1]
  rhsContracting := [0]
  lhsNonContracting := [0]
  rhsNonContracting := [1]
  lhsBatch := []
  rhsBatch := []
  wf := dot_S65536x256_S256x32_S65536x32_1_0_0_1_n_n_wf
def gather_S65536x32_S1048576x1_S1048576x32_1_0_n_n_0_1_132 : GatherDims S65536x32 S1048576x1 S1048576x32 where
  offsetDims := [1]
  collapsedSliceDims := [0]
  operandBatchingDims := []
  startIndicesBatchingDims := []
  startIndexMap := [0]
  indexVectorDim := 1
  sliceSizes := ![1, 32]
  wf := gather_S65536x32_S1048576x1_S1048576x32_1_0_n_n_0_1_132_wf
def scatter_S65536x32_S1048576x1_S1048576x32_1_0_0_1 : ScatterDims S65536x32 S1048576x1 S1048576x32 where
  updateWindowDims := [1]
  insertedWindowDims := [0]
  scatterDimsToOperandDims := [0]
  indexVectorDim := 1
  wf := scatter_S65536x32_S1048576x1_S1048576x32_1_0_0_1_wf
def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf
def gather_S65536x256_S4096x1_S4096x256_1_0_n_n_0_1_1256 : GatherDims S65536x256 S4096x1 S4096x256 where
  offsetDims := [1]
  collapsedSliceDims := [0]
  operandBatchingDims := []
  startIndicesBatchingDims := []
  startIndexMap := [0]
  indexVectorDim := 1
  sliceSizes := ![1, 256]
  wf := gather_S65536x256_S4096x1_S4096x256_1_0_n_n_0_1_1256_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.LibDense.lean ====
/-
  One dense layer on the extended reals, read at an entry.  For an `M × K` array `x`, a `K × N` array `w` and a
  bias row `b` of shape `1 × N`, entry `(r, c)` of `x · w + b` is the sum over `k : Fin K` of `x (r, k) * w (k, c)`
  plus `b (0, c)`; the layer optionally clamps every entry below by zero.  Two spellings of it are read here at an
  entry: a kernel tile's (operands rounded to bf16, which is the identity on the extended reals; a `tpu.matmul` into
  the zero splat; the bias row broadcast down the rows; `maximumf` against a zero splat) and the host's
  (`dot_general`; a rank-1 bias sent to a row and then down the rows; `maximum` against a broadcast zero).  Rows
  are independent: an entry depends on row `r` of `x` only, so a block of rows of the result is the layer of that
  block of rows.  Nothing here names a program.
-/
import proofs.«164840_j74955769249952_1_alg».proof.Proof.LibPlainMatmul
import Idealize.ShloMosaic.Lib.Pipeline.Value

noncomputable section

namespace Cert.Dense

open Idealize.ShloMosaic Idealize.ShloMosaic.ValueIdx

variable {M K N : ℕ}

/-- Entry `(r, c)` of `x · w + b`: row `r` of `x` against column `c` of `w`, plus the bias row's entry `c`. -/
def affine (x : FVec Ideal ⟨2, ![M, K]⟩ .f32) (w : FVec Ideal ⟨2, ![K, N]⟩ .f32) (b : FVec Ideal ⟨2, ![1, N]⟩ .f32)
    (r : Fin M) (c : Fin N) : EReal :=
  (∑ k : Fin K, x (ix2 r k) * w (ix2 k c)) + b (ix2 0 c)

/-- The layer as one array: `x · w + b`, every entry clamped below by zero when `act`. -/
def layer (act : Bool) (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun j => if act then max (affine x w b (j 0) (j 1)) 0 else affine x w b (j 0) (j 1)

theorem layer_apply (act : Bool) (x : FVec Ideal ⟨2, ![M, K]⟩ .f32) (w : FVec Ideal ⟨2, ![K, N]⟩ .f32)
    (b : FVec Ideal ⟨2, ![1, N]⟩ .f32) (r : Fin M) (c : Fin N) :
    layer act x w b (ix2 r c) = if act then max (affine x w b r c) 0 else affine x w b r c := rfl

/-- Rows are independent: if row `r'` of `x'` is row `r` of `x`, the layers agree there. -/
theorem layer_of_row {M' : ℕ} (act : Bool) (x : FVec Ideal ⟨2, ![M, K]⟩ .f32) (x' : FVec Ideal ⟨2, ![M', K]⟩ .f32)
    (w : FVec Ideal ⟨2, ![K, N]⟩ .f32) (b : FVec Ideal ⟨2, ![1, N]⟩ .f32) (r' : Fin M') (r : Fin M) (c : Fin N)
    (h : ∀ k : Fin K, x' (ix2 r' k) = x (ix2 r k)) :
    layer act x' w b (ix2 r' c) = layer act x w b (ix2 r c) := by
  rw [layer_apply, layer_apply]
  unfold affine
  simp only [h]

/-! ## A kernel tile's spelling -/

/-- The bias row, cast to its own shape and broadcast down the rows, read at `(r, c)`. -/
theorem bias_rows_apply (b : FVec Ideal ⟨2, ![1, N]⟩ .f32) (h2 : (⟨2, ![1, N]⟩ : Shape).ShapeCasts ⟨2, ![1, N]⟩)
    (h3 : (⟨2, ![1, N]⟩ : Shape).Broadcasts ⟨2, ![M, N]⟩) (r : Fin M) (c : Fin N) :
    broadcastTo ⟨2, ![M, N]⟩ (shapeCast ⟨2, ![1, N]⟩ b h2) h3 (ix2 r c) = b (ix2 0 c) := by
  rw [shapeCast_self]
  refine broadcastTo_apply b h3 (ix2 r c) (ix2 0 c) fun a => ?_
  match a with
  | ⟨0, _⟩ => exact (if_pos rfl).symm
  | ⟨1, _⟩ =>
    show c.val = if N = 1 then 0 else c.val
    split_ifs with h
    · have := c.isLt; omega
    · rfl

/-- The tile's affine part at `(r, c)`. -/
theorem tile_affine_apply (x : FVec Ideal ⟨2, ![M, K]⟩ .f32) (w : FVec Ideal ⟨2, ![K, N]⟩ .f32)
    (b : FVec Ideal ⟨2, ![1, N]⟩ .f32) (h1 : (⟨2, ![M, K]⟩ : Shape).ShapeCasts ⟨2, ![M, K]⟩)
    (hlt : FTy.bits .bf16 < FTy.bits .f32) (h2 : (⟨2, ![1, N]⟩ : Shape).ShapeCasts ⟨2, ![1, N]⟩)
    (h3 : (⟨2, ![1, N]⟩ : Shape).Broadcasts ⟨2, ![M, N]⟩) (r : Fin M) (c : Fin N) :
    addf (matmul (DotDims.plain M K N) none (truncf .bf16 (shapeCast ⟨2, ![M, K]⟩ x h1) hlt) (truncf .bf16 w hlt)
        (constant ⟨2, ![M, N]⟩ .f32 0x00000000#32))
      (broadcastTo ⟨2, ![M, N]⟩ (shapeCast ⟨2, ![1, N]⟩ b h2) h3) (ix2 r c) = affine x w b r c := by
  rw [addf_apply, Cert.PlainMatmul.matmul_plain_zero_apply, bias_rows_apply, shapeCast_self]
  rfl

/-- A tile with the clamp is the layer with it. -/
theorem tile_act (x : FVec Ideal ⟨2, ![M, K]⟩ .f32) (w : FVec Ideal ⟨2, ![K, N]⟩ .f32)
    (b : FVec Ideal ⟨2, ![1, N]⟩ .f32) (h1 : (⟨2, ![M, K]⟩ : Shape).ShapeCasts ⟨2, ![M, K]⟩)
    (hlt : FTy.bits .bf16 < FTy.bits .f32) (h2 : (⟨2, ![1, N]⟩ : Shape).ShapeCasts ⟨2, ![1, N]⟩)
    (h3 : (⟨2, ![1, N]⟩ : Shape).Broadcasts ⟨2, ![M, N]⟩) :
    maximumf (addf (matmul (DotDims.plain M K N) none (truncf .bf16 (shapeCast ⟨2, ![M, K]⟩ x h1) hlt) (truncf .bf16 w hlt)
        (constant ⟨2, ![M, N]⟩ .f32 0x00000000#32))
      (broadcastTo ⟨2, ![M, N]⟩ (shapeCast ⟨2, ![1, N]⟩ b h2) h3))
      (broadcast ⟨2, ![M, N]⟩ (Scalar.ofBits (F := Ideal) .f32 0x00000000#32)) = layer true x w b := by
  funext j
  obtain ⟨r, c, rfl⟩ : ∃ (r : Fin M) (c : Fin N), j = ix2 r c := ⟨j 0, j 1, eq_ix2 j⟩
  rw [maximumf_apply, tile_affine_apply, broadcast_apply, layer_apply]
  show max _ (Ideal.ofBits .f32 0x00000000#32) = _
  rw [Ideal.ofBits_zero_f32]
  rfl

/-- A tile without the clamp is the layer without it. -/
theorem tile_plain (x : FVec Ideal ⟨2, ![M, K]⟩ .f32) (w : FVec Ideal ⟨2, ![K, N]⟩ .f32)
    (b : FVec Ideal ⟨2, ![1, N]⟩ .f32) (h1 : (⟨2, ![M, K]⟩ : Shape).ShapeCasts ⟨2, ![M, K]⟩)
    (hlt : FTy.bits .bf16 < FTy.bits .f32) (h2 : (⟨2, ![1, N]⟩ : Shape).ShapeCasts ⟨2, ![1, N]⟩)
    (h3 : (⟨2, ![1, N]⟩ : Shape).Broadcasts ⟨2, ![M, N]⟩) :
    addf (matmul (DotDims.plain M K N) none (truncf .bf16 (shapeCast ⟨2, ![M, K]⟩ x h1) hlt) (truncf .bf16 w hlt)
        (constant ⟨2, ![M, N]⟩ .f32 0x00000000#32))
      (broadcastTo ⟨2, ![M, N]⟩ (shapeCast ⟨2, ![1, N]⟩ b h2) h3) = layer false x w b := by
  funext j
  obtain ⟨r, c, rfl⟩ : ∃ (r : Fin M) (c : Fin N), j = ix2 r c := ⟨j 0, j 1, eq_ix2 j⟩
  rw [tile_affine_apply, layer_apply]
  rfl

/-! ## The host's spelling -/

/-- A rank-1 bias sent to a row and then down the rows, read at `(r, c)`, is the bias at `c`. -/
theorem bias_host_apply (bias : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (c : Fin N) :
    broadcastInDim ⟨2, ![M, N]⟩ ![0, 1] hb2 (broadcastInDim ⟨2, ![1, N]⟩ ![1] hb1 bias) (ix2 r c) = bias (ix1 c) := by
  rw [broadcastInDim_apply ![0, 1] hb2 _ (ix2 r c) (ix2 0 c) (fun a => by
    match a with
    | ⟨0, _⟩ => exact (if_pos rfl).symm
    | ⟨1, _⟩ =>
      show c.val = if N = 1 then 0 else c.val
      split_ifs with h
      · have := c.isLt; omega
      · rfl)]
  exact broadcastInDim_apply ![1] hb1 bias (ix2 0 c) (ix1 c) (fun a => by
    match a with
    | ⟨0, _⟩ =>
      show c.val = if N = 1 then 0 else c.val
      split_ifs with h
      · have := c.isLt; omega
      · rfl)

/-- The same rank-1 bias reshaped to a row, read at `(0, c)`. -/
theorem bias_row_apply (bias : FVec Ideal ⟨1, ![N]⟩ .f32) (hc : (⟨1, ![N]⟩ : Shape).ShapeCasts ⟨2, ![1, N]⟩) (c : Fin N) :
    shapeCast ⟨2, ![1, N]⟩ bias hc (ix2 0 c) = bias (ix1 c) := by
  rw [shapeCast_addUnit_apply ![N] bias hc (ix2 0 c)]
  congr 1
  funext a
  match a with
  | ⟨0, _⟩ => rfl

/-- A plain host `dot_general` at entry `(r, c)` is `∑ k, a (r, k) * b (k, c)` on the extended reals. -/
theorem dot_plain_apply {φ₁ φ₂ : FTy} (a : FVec Ideal ⟨2, ![M, K]⟩ φ₁) (b : FVec Ideal ⟨2, ![K, N]⟩ φ₂)
    (prec : Option ContractPrecision) (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  rw [Cert.PlainMatmul.lhsIdx_plain, Cert.PlainMatmul.rhsIdx_plain]

/-- The host's affine part at `(r, c)`, with the rank-1 bias seen as the row it reshapes to. -/
theorem host_affine_apply (x : FVec Ideal ⟨2, ![M, K]⟩ .f32) (w : FVec Ideal ⟨2, ![K, N]⟩ .f32)
    (bias : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) (hc : (⟨1, ![N]⟩ : Shape).ShapeCasts ⟨2, ![1, N]⟩)
    (r : Fin M) (c : Fin N) :
    addf (Host.dotGeneral (DotDims.plain M K N) none x w)
      (broadcastInDim ⟨2, ![M, N]⟩ ![0, 1] hb2 (broadcastInDim ⟨2, ![1, N]⟩ ![1] hb1 bias)) (ix2 r c)
      = affine x w (shapeCast ⟨2, ![1, N]⟩ bias hc) r c := by
  rw [addf_apply, dot_plain_apply, bias_host_apply]
  unfold affine
  rw [bias_row_apply]

/-- The host's layer with the clamp. -/
theorem host_act (x : FVec Ideal ⟨2, ![M, K]⟩ .f32) (w : FVec Ideal ⟨2, ![K, N]⟩ .f32)
    (bias : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) (hc : (⟨1, ![N]⟩ : Shape).ShapeCasts ⟨2, ![1, N]⟩)
    (h0 : (⟨0, ![]⟩ : Shape).BroadcastsInDim ⟨2, ![M, N]⟩ ![]) :
    maximumf (addf (Host.dotGeneral (DotDims.plain M K N) none x w)
        (broadcastInDim ⟨2, ![M, N]⟩ ![0, 1] hb2 (broadcastInDim ⟨2, ![1, N]⟩ ![1] hb1 bias)))
      (broadcastInDim ⟨2, ![M, N]⟩ ![] h0 (constant (F := Ideal) ⟨0, ![]⟩ .f32 0x00000000#32))
      = layer true x w (shapeCast ⟨2, ![1, N]⟩ bias hc) := by
  funext j
  obtain ⟨r, c, rfl⟩ : ∃ (r : Fin M) (c : Fin N), j = ix2 r c := ⟨j 0, j 1, eq_ix2 j⟩
  rw [maximumf_apply, host_affine_apply x w bias hb1 hb2 hc, layer_apply]
  rw [broadcastInDim_apply ![] h0 _ (ix2 r c) ix0 (fun a => a.elim0), constant_apply, Ideal.ofBits_zero_f32]
  rfl

/-- The host's layer without the clamp. -/
theorem host_plain (x : FVec Ideal ⟨2, ![M, K]⟩ .f32) (w : FVec Ideal ⟨2, ![K, N]⟩ .f32)
    (bias : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) (hc : (⟨1, ![N]⟩ : Shape).ShapeCasts ⟨2, ![1, N]⟩) :
    addf (Host.dotGeneral (DotDims.plain M K N) none x w)
        (broadcastInDim ⟨2, ![M, N]⟩ ![0, 1] hb2 (broadcastInDim ⟨2, ![1, N]⟩ ![1] hb1 bias))
      = layer false x w (shapeCast ⟨2, ![1, N]⟩ bias hc) := by
  funext j
  obtain ⟨r, c, rfl⟩ : ∃ (r : Fin M) (c : Fin N), j = ix2 r c := ⟨j 0, j 1, eq_ix2 j⟩
  rw [host_affine_apply x w bias hb1 hb2 hc, layer_apply]
  rfl

end Cert.Dense

end
-- ==== Proof.Layer0.lean ====
/-
  The first dense layer's region, read as a value.  The grid has 16 points; point `t` reads rows
  `4096 t … 4096 t + 4095` of the aggregated features (a 65536 × 256 array), the whole 256 × 32 weight and the whole
  1 × 32 bias row, and writes rows `4096 t … 4096 t + 4095` of the 65536 × 32 result.  The tile it stores is the layer
  (product, bias, clamp at zero) of the rows it loaded; an entry of the layer depends on one row of the left operand
  only, so what point `t` writes back is block `t` of the layer of the WHOLE arrays, and the sixteen blocks tile the
  result: after the region the result array holds the layer of the arrays the region found, whatever those are (`V`).
-/
import proofs.«164840_j74955769249952_1_alg».proof.Proof.Gen.KernelIdeal.Frame
import proofs.«164840_j74955769249952_1_alg».proof.Proof.LibDense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored tile is the clamped layer of the three loaded blocks. -/
theorem pay_eq (x0 : Vec Ideal S4096x256 .f32) (x1 : Vec Ideal S256x32 .f32) (x2 : Vec Ideal S1x32 .f32) :
    k0_pay1 x0 x1 x2 = Cert.Dense.layer true x0 x1 x2 := by
  unfold k0_pay1
  exact Cert.Dense.tile_act x0 x1 x2 _ _ _ _

/-- The block indices over the grid: the left operand and the result move down by one block of rows per point, the
    weight and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays the region finds, at their literal types. -/
abbrev xarr (c : Dev nD) : FVec Ideal S65536x256 .f32 := V c main_v16
abbrev warr (c : Dev nD) : FVec Ideal S256x32 .f32 := V c main_arg6
abbrev barr (c : Dev nD) : FVec Ideal S1x32 .f32 := V c main_v17

/-- Row `r` of the left operand's block at point `t` is row `4096 t + r` of the array. -/
theorem xblk_apply (c : Dev nD) (t : Fin cfg0.N) (r : Fin 4096) (k : Fin 256) (R : Fin 65536) (hR : R.val = t.val * 4096 + r.val) :
    (iblk0 V c 0 t : Vec Ideal S4096x256 .f32) (ix2 r k) = xarr V c (ix2 R k) := by
  obtain ⟨e0, e1, -⟩ := idx_facts t
  unfold iblk0
  rw [View.read_apply]
  show V c main_v16 _ = V c main_v16 _
  congr 1
  funext a
  apply Fin.ext
  match a with
  | ⟨0, _⟩ => show win0_0.index t (0 : Fin 2) * 4096 + 1 * r.val = R.val; omega
  | ⟨1, _⟩ => show win0_0.index t (1 : Fin 2) * 256 + 1 * k.val = k.val; omega

/-- The weight's block at every point is the whole weight. -/
theorem wblk_eq (c : Dev nD) (t : Fin cfg0.N) : (iblk0 V c 1 t : Vec Ideal S256x32 .f32) = warr V c := by
  obtain ⟨-, -, e2, e3, -⟩ := idx_facts t
  funext y
  unfold iblk0
  rw [View.read_apply]
  show V c main_arg6 _ = V c main_arg6 _
  congr 1
  funext a
  apply Fin.ext
  match a with
  | ⟨0, _⟩ => show win0_1.index t (0 : Fin 2) * 256 + 1 * (y 0).val = (y 0).val; omega
  | ⟨1, _⟩ => show win0_1.index t (1 : Fin 2) * 32 + 1 * (y 1).val = (y 1).val; omega

/-- The bias row's block at every point is the whole row. -/
theorem bblk_eq (c : Dev nD) (t : Fin cfg0.N) : (iblk0 V c 2 t : Vec Ideal S1x32 .f32) = barr V c := by
  obtain ⟨-, -, -, -, e4, e5, -⟩ := idx_facts t
  funext y
  unfold iblk0
  rw [View.read_apply]
  show V c main_v17 _ = V c main_v17 _
  congr 1
  funext a
  apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- What point `t` writes back is block `t` of the layer of the whole arrays. -/
theorem flushed_eq (c : Dev nD) (t : Fin cfg0.N) :
    (dat0 V c).flushed 3 t = ((cfg0.win 3).blk t).view.read (Elt Ideal) (Cert.Dense.layer true (xarr V c) (warr V c) (barr V c)) := by
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S4096x256) hz, View.ld_unit_zero (S := S256x32) hz, View.ld_unit_zero (S := S1x32) hz]
  rw [pay_eq, wblk_eq, bblk_eq]
  funext y
  obtain ⟨r, q, rfl⟩ : ∃ (r : Fin 4096) (q : Fin 32), y = ix2 r q := ⟨y 0, y 1, eq_ix2 y⟩
  have hlt : t.val * 4096 + r.val < 65536 := by have := t.isLt; have : cfg0.N = 16 := rfl; omega
  show Cert.Dense.layer true (iblk0 V c 0 t : Vec Ideal S4096x256 .f32) (warr V c) (barr V c) (ix2 r q)
    = Cert.Dense.layer true (xarr V c) (warr V c) (barr V c) (((cfg0.win 3).blk t).view.emb (ix2 r q))
  have hemb : ((cfg0.win 3).blk t).view.emb (ix2 r q) = (ix2 (⟨t.val * 4096 + r.val, hlt⟩ : Fin 65536) q : S65536x32.Idx) := by
    funext a
    apply Fin.ext
    match a with
    | ⟨0, _⟩ => show win0_3.index t (0 : Fin 2) * 4096 + 1 * r.val = t.val * 4096 + r.val; omega
    | ⟨1, _⟩ => show win0_3.index t (1 : Fin 2) * 32 + 1 * q.val = q.val; omega
  rw [hemb]
  exact Cert.Dense.layer_of_row true (xarr V c) _ (warr V c) (barr V c) r ⟨t.val * 4096 + r.val, hlt⟩ q
    (fun k => xblk_apply V c t r k _ rfl)

/-- An index of the result is in point `t`'s block iff its row is among that block's rows. -/
theorem mem_blk (t : Fin cfg0.N) (i : S65536x32.Idx) :
    i ∈ ((cfg0.win 3).blk t).view.set ↔ ∀ a : Fin 2, win0_3.index t a * S4096x32.size a ≤ (i a).val ∧ (i a).val < win0_3.index t a * S4096x32.size a + S4096x32.size a := by
  show i ∈ ((View.whole main_v18).slice (win0_3.rect t)).set ↔ _
  rw [View.set_slice_whole, Rect.mem_set_unit]
  exact Iff.rfl

/-- THE RESULT ARRAY after the region: the clamped layer of the arrays the region found. -/
theorem arr_eq (c : Dev nD) :
    (dat0 V c).arrAt 3 cfg0.N = Cert.Dense.layer true (xarr V c) (warr V c) (barr V c) :=
  (dat0 V c).arrAt_eq_of_cover 3 _ (fun t _ => flushed_eq V c t) fun i => by
    have hi0 : (i 0).val < 65536 := (i 0).isLt
    have hi1 : (i 1).val < 32 := (i 1).isLt
    refine ⟨⟨(i 0).val / 4096, by show _ < 16; omega⟩, flush0_3 _, ?_⟩
    rw [mem_blk]
    obtain ⟨-, -, -, -, -, -, e6, e7⟩ := idx_facts ⟨(i 0).val / 4096, by show _ < 16; omega⟩
    intro a
    match a with
    | ⟨0, _⟩ => show win0_3.index _ (0 : Fin 2) * 4096 ≤ (i 0).val ∧ (i 0).val < win0_3.index _ (0 : Fin 2) * 4096 + 4096; rw [e6]; show (i 0).val / 4096 * 4096 ≤ _ ∧ _ < (i 0).val / 4096 * 4096 + 4096; omega
    | ⟨1, _⟩ => show win0_3.index _ (1 : Fin 2) * 32 ≤ (i 1).val ∧ (i 1).val < win0_3.index _ (1 : Fin 2) * 32 + 32; rw [e7]; omega

/-- The same with the arrays the region found given by name. -/
theorem arr_of (c : Dev nD) (X : FVec Ideal S65536x256 .f32) (W : FVec Ideal S256x32 .f32) (B : FVec Ideal S1x32 .f32)
    (hX : xarr V c = X) (hW : warr V c = W) (hB : barr V c = B) :
    (dat0 V c).arrAt 3 cfg0.N = Cert.Dense.layer true X W B := by
  subst hX hW hB
  exact arr_eq V c

end Cert.KernelIdeal.Layer0

end
-- ==== Proof.Layer1.lean ====
/-
  The second dense layer's region, read as a value.  The grid has 16 points; point `t` reads rows
  `4096 t … 4096 t + 4095` of the aggregated hidden units (a 65536 × 32 array), the whole 32 × 256 weight and the whole
  1 × 256 bias row, and writes rows `4096 t … 4096 t + 4095` of the 65536 × 256 result.  The tile it stores is the layer
  (product and bias, no clamp) of the rows it loaded; an entry of the layer depends on one row of the left operand
  only, so what point `t` writes back is block `t` of the layer of the WHOLE arrays, and the sixteen blocks tile the
  result: after the region the result array holds the layer of the arrays the region found, whatever those are (`V`).
-/
import proofs.«164840_j74955769249952_1_alg».proof.Proof.Gen.KernelIdeal.Frame
import proofs.«164840_j74955769249952_1_alg».proof.Proof.LibDense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored tile is the unclamped layer of the three loaded blocks. -/
theorem pay_eq (x0 : Vec Ideal S4096x32 .f32) (x1 : Vec Ideal S32x256 .f32) (x2 : Vec Ideal S1x256 .f32) :
    k1_pay1 x0 x1 x2 = Cert.Dense.layer false x0 x1 x2 := by
  unfold k1_pay1
  exact Cert.Dense.tile_plain x0 x1 x2 _ _ _ _

/-- The block indices over the grid: the left operand and the result move down by one block of rows per point, the
    weight and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The arrays the region finds, at their literal types. -/
abbrev xarr (c : Dev nD) : FVec Ideal S65536x32 .f32 := V c main_v28
abbrev warr (c : Dev nD) : FVec Ideal S32x256 .f32 := V c main_arg8
abbrev barr (c : Dev nD) : FVec Ideal S1x256 .f32 := V c main_v29

/-- Row `r` of the left operand's block at point `t` is row `4096 t + r` of the array. -/
theorem xblk_apply (c : Dev nD) (t : Fin cfg1.N) (r : Fin 4096) (k : Fin 32) (R : Fin 65536) (hR : R.val = t.val * 4096 + r.val) :
    (iblk1 V c 0 t : Vec Ideal S4096x32 .f32) (ix2 r k) = xarr V c (ix2 R k) := by
  obtain ⟨e0, e1, -⟩ := idx_facts t
  unfold iblk1
  rw [View.read_apply]
  show V c main_v28 _ = V c main_v28 _
  congr 1
  funext a
  apply Fin.ext
  match a with
  | ⟨0, _⟩ => show win1_0.index t (0 : Fin 2) * 4096 + 1 * r.val = R.val; omega
  | ⟨1, _⟩ => show win1_0.index t (1 : Fin 2) * 32 + 1 * k.val = k.val; omega

/-- The weight's block at every point is the whole weight. -/
theorem wblk_eq (c : Dev nD) (t : Fin cfg1.N) : (iblk1 V c 1 t : Vec Ideal S32x256 .f32) = warr V c := by
  obtain ⟨-, -, e2, e3, -⟩ := idx_facts t
  funext y
  unfold iblk1
  rw [View.read_apply]
  show V c main_arg8 _ = V c main_arg8 _
  congr 1
  funext a
  apply Fin.ext
  match a with
  | ⟨0, _⟩ => show win1_1.index t (0 : Fin 2) * 32 + 1 * (y 0).val = (y 0).val; omega
  | ⟨1, _⟩ => show win1_1.index t (1 : Fin 2) * 256 + 1 * (y 1).val = (y 1).val; omega

/-- The bias row's block at every point is the whole row. -/
theorem bblk_eq (c : Dev nD) (t : Fin cfg1.N) : (iblk1 V c 2 t : Vec Ideal S1x256 .f32) = barr V c := by
  obtain ⟨-, -, -, -, e4, e5, -⟩ := idx_facts t
  funext y
  unfold iblk1
  rw [View.read_apply]
  show V c main_v29 _ = V c main_v29 _
  congr 1
  funext a
  apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point `t` writes back is block `t` of the layer of the whole arrays. -/
theorem flushed_eq (c : Dev nD) (t : Fin cfg1.N) :
    (dat1 V c).flushed 3 t = ((cfg1.win 3).blk t).view.read (Elt Ideal) (Cert.Dense.layer false (xarr V c) (warr V c) (barr V c)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S4096x32) hz, View.ld_unit_zero (S := S32x256) hz, View.ld_unit_zero (S := S1x256) hz]
  rw [pay_eq, wblk_eq, bblk_eq]
  funext y
  obtain ⟨r, q, rfl⟩ : ∃ (r : Fin 4096) (q : Fin 256), y = ix2 r q := ⟨y 0, y 1, eq_ix2 y⟩
  have hlt : t.val * 4096 + r.val < 65536 := by have := t.isLt; have : cfg1.N = 16 := rfl; omega
  show Cert.Dense.layer false (iblk1 V c 0 t : Vec Ideal S4096x32 .f32) (warr V c) (barr V c) (ix2 r q)
    = Cert.Dense.layer false (xarr V c) (warr V c) (barr V c) (((cfg1.win 3).blk t).view.emb (ix2 r q))
  have hemb : ((cfg1.win 3).blk t).view.emb (ix2 r q) = (ix2 (⟨t.val * 4096 + r.val, hlt⟩ : Fin 65536) q : S65536x256.Idx) := by
    funext a
    apply Fin.ext
    match a with
    | ⟨0, _⟩ => show win1_3.index t (0 : Fin 2) * 4096 + 1 * r.val = t.val * 4096 + r.val; omega
    | ⟨1, _⟩ => show win1_3.index t (1 : Fin 2) * 256 + 1 * q.val = q.val; omega
  rw [hemb]
  exact Cert.Dense.layer_of_row false (xarr V c) _ (warr V c) (barr V c) r ⟨t.val * 4096 + r.val, hlt⟩ q
    (fun k => xblk_apply V c t r k _ rfl)

/-- An index of the result is in point `t`'s block iff its row is among that block's rows. -/
theorem mem_blk (t : Fin cfg1.N) (i : S65536x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v30).slice (win1_3.rect t)).set ↔ _
  rw [View.set_slice_whole, Rect.mem_set_unit]
  exact Iff.rfl

/-- THE RESULT ARRAY after the region: the unclamped layer of the arrays the region found. -/
theorem arr_eq (c : Dev nD) :
    (dat1 V c).arrAt 3 cfg1.N = Cert.Dense.layer false (xarr V c) (warr V c) (barr V c) :=
  (dat1 V c).arrAt_eq_of_cover 3 _ (fun t _ => flushed_eq V c t) fun i => by
    have hi0 : (i 0).val < 65536 := (i 0).isLt
    have hi1 : (i 1).val < 256 := (i 1).isLt
    refine ⟨⟨(i 0).val / 4096, by show _ < 16; omega⟩, flush1_3 _, ?_⟩
    rw [mem_blk]
    obtain ⟨-, -, -, -, -, -, e6, e7⟩ := idx_facts ⟨(i 0).val / 4096, by show _ < 16; omega⟩
    intro a
    match a with
    | ⟨0, _⟩ => show win1_3.index _ (0 : Fin 2) * 4096 ≤ (i 0).val ∧ (i 0).val < win1_3.index _ (0 : Fin 2) * 4096 + 4096; rw [e6]; show (i 0).val / 4096 * 4096 ≤ _ ∧ _ < (i 0).val / 4096 * 4096 + 4096; omega
    | ⟨1, _⟩ => show win1_3.index _ (1 : Fin 2) * 256 ≤ (i 1).val ∧ (i 1).val < win1_3.index _ (1 : Fin 2) * 256 + 256; rw [e7]; omega

/-- The same with the arrays the region found given by name. -/
theorem arr_of (c : Dev nD) (X : FVec Ideal S65536x32 .f32) (W : FVec Ideal S32x256 .f32) (B : FVec Ideal S1x256 .f32)
    (hX : xarr V c = X) (hW : warr V c = W) (hB : barr V c = B) :
    (dat1 V c).arrAt 3 cfg1.N = Cert.Dense.layer false X W B := by
  subst hX hW hB
  exact arr_eq V c

end Cert.KernelIdeal.Layer1

end
-- ==== Proof.Layer2.lean ====
/-
  The last dense layer's region, read as a value.  The grid has 4 points; point `t` reads rows
  `1024 t … 1024 t + 1023` of the gene pairs (a 4096 × 512 array), the whole 512 × 256 weight and the whole 1 × 256
  bias row, and writes rows `1024 t … 1024 t + 1023` of the 4096 × 256 result.  The tile it stores is the layer
  (product, bias, clamp at zero) of the rows it loaded; an entry of the layer depends on one row of the left operand
  only, so what point `t` writes back is block `t` of the layer of the WHOLE arrays, and the four blocks tile the
  result: after the region the result array holds the layer of the arrays the region found, whatever those are (`V`).
-/
import proofs.«164840_j74955769249952_1_alg».proof.Proof.Gen.KernelIdeal.Frame
import proofs.«164840_j74955769249952_1_alg».proof.Proof.LibDense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored tile is the clamped layer of the three loaded blocks. -/
theorem pay_eq (x0 : Vec Ideal S1024x512 .f32) (x1 : Vec Ideal S512x256 .f32) (x2 : Vec Ideal S1x256 .f32) :
    k2_pay1 x0 x1 x2 = Cert.Dense.layer true x0 x1 x2 := by
  unfold k2_pay1
  exact Cert.Dense.tile_act x0 x1 x2 _ _ _ _

/-- The block indices over the grid: the left operand and the result move down by one block of rows per point, the
    weight and the bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The arrays the region finds, at their literal types. -/
abbrev xarr (c : Dev nD) : FVec Ideal S4096x512 .f32 := V c main_v45
abbrev warr (c : Dev nD) : FVec Ideal S512x256 .f32 := V c main_arg10
abbrev barr (c : Dev nD) : FVec Ideal S1x256 .f32 := V c main_v46

/-- Row `r` of the left operand's block at point `t` is row `1024 t + r` of the array. -/
theorem xblk_apply (c : Dev nD) (t : Fin cfg2.N) (r : Fin 1024) (k : Fin 512) (R : Fin 4096) (hR : R.val = t.val * 1024 + r.val) :
    (iblk2 V c 0 t : Vec Ideal S1024x512 .f32) (ix2 r k) = xarr V c (ix2 R k) := by
  obtain ⟨e0, e1, -⟩ := idx_facts t
  unfold iblk2
  rw [View.read_apply]
  show V c main_v45 _ = V c main_v45 _
  congr 1
  funext a
  apply Fin.ext
  match a with
  | ⟨0, _⟩ => show win2_0.index t (0 : Fin 2) * 1024 + 1 * r.val = R.val; omega
  | ⟨1, _⟩ => show win2_0.index t (1 : Fin 2) * 512 + 1 * k.val = k.val; omega

/-- The weight's block at every point is the whole weight. -/
theorem wblk_eq (c : Dev nD) (t : Fin cfg2.N) : (iblk2 V c 1 t : Vec Ideal S512x256 .f32) = warr V c := by
  obtain ⟨-, -, e2, e3, -⟩ := idx_facts t
  funext y
  unfold iblk2
  rw [View.read_apply]
  show V c main_arg10 _ = V c main_arg10 _
  congr 1
  funext a
  apply Fin.ext
  match a with
  | ⟨0, _⟩ => show win2_1.index t (0 : Fin 2) * 512 + 1 * (y 0).val = (y 0).val; omega
  | ⟨1, _⟩ => show win2_1.index t (1 : Fin 2) * 256 + 1 * (y 1).val = (y 1).val; omega

/-- The bias row's block at every point is the whole row. -/
theorem bblk_eq (c : Dev nD) (t : Fin cfg2.N) : (iblk2 V c 2 t : Vec Ideal S1x256 .f32) = barr V c := by
  obtain ⟨-, -, -, -, e4, e5, -⟩ := idx_facts t
  funext y
  unfold iblk2
  rw [View.read_apply]
  show V c main_v46 _ = V c main_v46 _
  congr 1
  funext a
  apply Fin.ext
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- What point `t` writes back is block `t` of the layer of the whole arrays. -/
theorem flushed_eq (c : Dev nD) (t : Fin cfg2.N) :
    (dat2 V c).flushed 3 t = ((cfg2.win 3).blk t).view.read (Elt Ideal) (Cert.Dense.layer true (xarr V c) (warr V c) (barr V c)) := by
  obtain ⟨-, -, -, -, -, -, e6, e7⟩ := idx_facts t
  show (cfg2.win 3).cut (grid2.coords t) ((dat2 V c).after 3 t) = _
  rw [after2_3]
  unfold out2_3
  rw [View.canon_unit_zero hz]
  simp only [View.ld_unit_zero (S := S1024x512) hz, View.ld_unit_zero (S := S512x256) hz, View.ld_unit_zero (S := S1x256) hz]
  rw [pay_eq, wblk_eq, bblk_eq]
  funext y
  obtain ⟨r, q, rfl⟩ : ∃ (r : Fin 1024) (q : Fin 256), y = ix2 r q := ⟨y 0, y 1, eq_ix2 y⟩
  have hlt : t.val * 1024 + r.val < 4096 := by have := t.isLt; have : cfg2.N = 4 := rfl; omega
  show Cert.Dense.layer true (iblk2 V c 0 t : Vec Ideal S1024x512 .f32) (warr V c) (barr V c) (ix2 r q)
    = Cert.Dense.layer true (xarr V c) (warr V c) (barr V c) (((cfg2.win 3).blk t).view.emb (ix2 r q))
  have hemb : ((cfg2.win 3).blk t).view.emb (ix2 r q) = (ix2 (⟨t.val * 1024 + r.val, hlt⟩ : Fin 4096) q : S4096x256.Idx) := by
    funext a
    apply Fin.ext
    match a with
    | ⟨0, _⟩ => show win2_3.index t (0 : Fin 2) * 1024 + 1 * r.val = t.val * 1024 + r.val; omega
    | ⟨1, _⟩ => show win2_3.index t (1 : Fin 2) * 256 + 1 * q.val = q.val; omega
  rw [hemb]
  exact Cert.Dense.layer_of_row true (xarr V c) _ (warr V c) (barr V c) r ⟨t.val * 1024 + r.val, hlt⟩ q
    (fun k => xblk_apply V c t r k _ rfl)

/-- An index of the result is in point `t`'s block iff its row is among that block's rows. -/
theorem mem_blk (t : Fin cfg2.N) (i : S4096x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v47).slice (win2_3.rect t)).set ↔ _
  rw [View.set_slice_whole, Rect.mem_set_unit]
  exact Iff.rfl

/-- THE RESULT ARRAY after the region: the clamped layer of the arrays the region found. -/
theorem arr_eq (c : Dev nD) :
    (dat2 V c).arrAt 3 cfg2.N = Cert.Dense.layer true (xarr V c) (warr V c) (barr V c) :=
  (dat2 V c).arrAt_eq_of_cover 3 _ (fun t _ => flushed_eq V c t) fun i => by
    have hi0 : (i 0).val < 4096 := (i 0).isLt
    have hi1 : (i 1).val < 256 := (i 1).isLt
    refine ⟨⟨(i 0).val / 1024, by show _ < 4; omega⟩, flush2_3 _, ?_⟩
    rw [mem_blk]
    obtain ⟨-, -, -, -, -, -, e6, e7⟩ := idx_facts ⟨(i 0).val / 1024, by show _ < 4; omega⟩
    intro a
    match a with
    | ⟨0, _⟩ => show win2_3.index _ (0 : Fin 2) * 1024 ≤ (i 0).val ∧ (i 0).val < win2_3.index _ (0 : Fin 2) * 1024 + 1024; rw [e6]; show (i 0).val / 1024 * 1024 ≤ _ ∧ _ < (i 0).val / 1024 * 1024 + 1024; omega
    | ⟨1, _⟩ => show win2_3.index _ (1 : Fin 2) * 256 ≤ (i 1).val ∧ (i 1).val < win2_3.index _ (1 : Fin 2) * 256 + 256; rw [e7]; omega

/-- The same with the arrays the region found given by name. -/
theorem arr_of (c : Dev nD) (X : FVec Ideal S4096x512 .f32) (W : FVec Ideal S512x256 .f32) (B : FVec Ideal S1x256 .f32)
    (hX : xarr V c = X) (hW : warr V c = W) (hB : barr V c = B) :
    (dat2 V c).arrAt 3 cfg2.N = Cert.Dense.layer true X W B := by
  subst hX hW hB
  exact arr_eq V c

end Cert.KernelIdeal.Layer2

end
-- ==== Proof.Stages.lean ====
/-
  What both programs compute, stage by stage, as functions of the arrays they are given.

  * node features: row `idx[n]` of the embedding table for each of the 65536 nodes (a negative index counts from the
    end, as jnp normalises it);
  * neighbour sum: for each of the 1048576 edges the source node's row is added into the destination node's row
    (`segment_sum`: a gather then a scatter-add into zeros) — once on the 256 features, once on the 32 hidden units;
  * three dense layers: 256 → 32 with a clamp at zero, 32 → 256 without, and 512 → 256 with a clamp on the 4096
    gene pairs, each pair the two genes' rows of the second layer's result side by side.

  The reference applies these as host operations throughout; its result is, syntactically, their composition
  (`result_eq`).  Each dense layer as the host spells it is the array `Cert.Dense.layer` (`hidden_eq`, `second_eq`,
  `final_eq`): that is the form in which a kernel region's result array is read.
-/
import proofs.«164840_j74955769249952_1_alg».proof.Proof.Gen.ReferenceIdeal.Run
import proofs.«164840_j74955769249952_1_alg».proof.Proof.LibDense

noncomputable section

namespace Cert.Stages

open Cert.ReferenceIdeal Cert.ReferenceIdeal.Gen Idealize.ShloMosaic Idealize.ShloMosaic.TcCoe Idealize.SL.Sem

variable {F : FTy → Type} [FloatOps F]

/-- The node features: the embedding table's rows at the (normalised) node indices. -/
def feat (a0 : IVec S65536 32) (a5 : FVec F S54012x256 .f32) : FVec F S65536x256 .f32 :=
  Host.gather gather_S54012x256_S65536x1_S65536x256_1_0_n_n_0_1_1256 a5 (broadcastInDim S65536x1 ![0] bcast_S65536_S65536x1_0 (select (cmpi .slt a0 (broadcastInDim S65536 ![] bcast_S_S65536 (constantI S_ 32 0#32))) (addi a0 (broadcastInDim S65536 ![] bcast_S_S65536 (constantI S_ 32 54012#32))) a0))

/-- The edges' source nodes, normalised, as a column of row indices. -/
def srcCol (a1 : IVec S1048576 32) : IVec S1048576x1 32 :=
  broadcastInDim S1048576x1 ![0] bcast_S1048576_S1048576x1_0 (select (cmpi .slt a1 (broadcastInDim S1048576 ![] bcast_S_S1048576 (constantI S_ 32 0#32))) (addi a1 (broadcastInDim S1048576 ![] bcast_S_S1048576 (constantI S_ 32 65536#32))) a1)

/-- The edges' destination nodes as a column of row indices. -/
def dstCol (a2 : IVec S1048576 32) : IVec S1048576x1 32 :=
  broadcastInDim S1048576x1 ![0] bcast_S1048576_S1048576x1_0 a2

/-- The neighbour sum of the 256 features. -/
def agg1 (a0 : IVec S65536 32) (a1 a2 : IVec S1048576 32) (a5 : FVec F S54012x256 .f32) : FVec F S65536x256 .f32 :=
  Host.scatterAdd scatter_S65536x256_S1048576x1_S1048576x256_1_0_0_1 (broadcastInDim S65536x256 ![] bcast_S_S65536x256 (constant S_ .f32 0x00000000#32)) (dstCol a2) (Host.gather gather_S65536x256_S1048576x1_S1048576x256_1_0_n_n_0_1_1256 (feat a0 a5) (srcCol a1))

/-- The first dense layer as the host spells it: 256 → 32, clamped at zero. -/
def hidden (g : FVec F S65536x256 .f32) (a6 : FVec F S256x32 .f32) (a7 : FVec F S32 .f32) : FVec F S65536x32 .f32 :=
  maximumf (addf (Host.dotGeneral dot_S65536x256_S256x32_S65536x32_1_0_0_1_n_n none g a6) (broadcastInDim S65536x32 ![0, 1] bcast_S1x32_S65536x32_0_1 (broadcastInDim S1x32 ![1] bcast_S32_S1x32_1 a7))) (broadcastInDim S65536x32 ![] bcast_S_S65536x32 (constant S_ .f32 0x00000000#32))

/-- The neighbour sum of the 32 hidden units. -/
def agg2 (h : FVec F S65536x32 .f32) (a1 a2 : IVec S1048576 32) : FVec F S65536x32 .f32 :=
  Host.scatterAdd scatter_S65536x32_S1048576x1_S1048576x32_1_0_0_1 (broadcastInDim S65536x32 ![] bcast_S_S65536x32 (constant S_ .f32 0x00000000#32)) (dstCol a2) (Host.gather gather_S65536x32_S1048576x1_S1048576x32_1_0_n_n_0_1_132 h (srcCol a1))

/-- The second dense layer as the host spells it: 32 → 256, no clamp. -/
def second (g : FVec F S65536x32 .f32) (a8 : FVec F S32x256 .f32) (a9 : FVec F S256 .f32) : FVec F S65536x256 .f32 :=
  addf (Host.dotGeneral dot_S65536x32_S32x256_S65536x256_1_0_0_1_n_n none g a8) (broadcastInDim S65536x256 ![0, 1] bcast_S1x256_S65536x256_0_1 (broadcastInDim S1x256 ![1] bcast_S256_S1x256_1 a9))

/-- A list of 4096 gene indices, normalised, as a column of row indices. -/
def geneCol (a : IVec S4096 32) : IVec S4096x1 32 :=
  broadcastInDim S4096x1 ![0] bcast_S4096_S4096x1_0 (select (cmpi .slt a (broadcastInDim S4096 ![] bcast_S_S4096 (constantI S_ 32 0#32))) (addi a (broadcastInDim S4096 ![] bcast_S_S4096 (constantI S_ 32 65536#32))) a)

/-- The gene pairs: the two genes' rows side by side. -/
def pairs (h2 : FVec F S65536x256 .f32) (a3 a4 : IVec S4096 32) : FVec F S4096x512 .f32 :=
  concatenate S4096x512 1 [⟨S4096x256, Host.gather gather_S65536x256_S4096x1_S4096x256_1_0_n_n_0_1_1256 h2 (geneCol a3)⟩, ⟨S4096x256, Host.gather gather_S65536x256_S4096x1_S4096x256_1_0_n_n_0_1_1256 h2 (geneCol a4)⟩] concatenates_S4096x256_S4096x256_S4096x512_d1

/-- The last dense layer as the host spells it: 512 → 256, clamped at zero. -/
def final (p : FVec F S4096x512 .f32) (a10 : FVec F S512x256 .f32) (a11 : FVec F S256 .f32) : FVec F S4096x256 .f32 :=
  maximumf (addf (Host.dotGeneral dot_S4096x512_S512x256_S4096x256_1_0_0_1_n_n none p a10) (broadcastInDim S4096x256 ![0, 1] bcast_S1x256_S4096x256_0_1 (broadcastInDim S1x256 ![1] bcast_S256_S1x256_1 a11))) (broadcastInDim S4096x256 ![] bcast_S_S4096x256 (constant S_ .f32 0x00000000#32))

/-- The whole computation. -/
def result (a0 : IVec S65536 32) (a1 a2 : IVec S1048576 32) (a3 a4 : IVec S4096 32) (a5 : FVec F S54012x256 .f32)
    (a6 : FVec F S256x32 .f32) (a7 : FVec F S32 .f32) (a8 : FVec F S32x256 .f32) (a9 : FVec F S256 .f32)
    (a10 : FVec F S512x256 .f32) (a11 : FVec F S256 .f32) : FVec F S4096x256 .f32 :=
  final (pairs (second (agg2 (hidden (agg1 a0 a1 a2 a5) a6 a7) a1 a2) a8 a9) a3 a4) a10 a11

set_option maxRecDepth 8192 in
/-- The reference's composed term IS that composition of the launch contents of its arguments. -/
theorem result_eq (m : (ℓ : Loc nD τ sig) → Buf (Elt F) ℓ) (c : Dev nD) :
    Cert.ReferenceIdeal.Value.res_main_v55 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v55 result final pairs second agg2 hidden agg1 feat srcCol dstCol geneCol
  rfl

/-! ## Each dense layer as one array of entries -/

theorem hidden_eq (g : FVec Ideal S65536x256 .f32) (a6 : FVec Ideal S256x32 .f32) (a7 : FVec Ideal S32 .f32)
    (hc : S32.ShapeCasts S1x32) :
    hidden g a6 a7 = Cert.Dense.layer true g a6 (shapeCast S1x32 a7 hc) := by
  unfold hidden
  exact Cert.Dense.host_act g a6 a7 _ _ hc _

theorem second_eq (g : FVec Ideal S65536x32 .f32) (a8 : FVec Ideal S32x256 .f32) (a9 : FVec Ideal S256 .f32)
    (hc : S256.ShapeCasts S1x256) :
    second g a8 a9 = Cert.Dense.layer false g a8 (shapeCast S1x256 a9 hc) := by
  unfold second
  exact Cert.Dense.host_plain g a8 a9 _ _ hc

theorem final_eq (p : FVec Ideal S4096x512 .f32) (a10 : FVec Ideal S512x256 .f32) (a11 : FVec Ideal S256 .f32)
    (hc : S256.ShapeCasts S1x256) :
    final p a10 a11 = Cert.Dense.layer true p a10 (shapeCast S1x256 a11 hc) := by
  unfold final
  exact Cert.Dense.host_act p a10 a11 _ _ hc _

end Cert.Stages

end
-- ==== Proof.KernelValue.lean ====
/-
  The idealized kernel's result array as a value.  The run's buffer contents at each boundary of @main are a fold
  from the launch memory: a stretch of host operations applies them, a region leaves its result array at the dense
  layer of the arrays it found (the three region modules) and every other buffer as it was.  Reading that fold back
  from the last boundary to the launch: the result array holds the last layer of the gene pairs, which are gathered
  from the second layer's result, which is the layer of the neighbour sum of the first layer's result, which is the
  layer of the neighbour sum of the node features — the composition `Cert.Stages.result` of the twelve arguments as
  launched.  No host operation and no region writes an argument, so at every boundary an argument's buffer still holds
  its launch contents.
-/
import proofs.«164840_j74955769249952_1_alg».proof.Proof.Gen.KernelIdeal.Frame
import proofs.«164840_j74955769249952_1_alg».proof.Proof.Layer0
import proofs.«164840_j74955769249952_1_alg».proof.Proof.Layer1
import proofs.«164840_j74955769249952_1_alg».proof.Proof.Layer2
import proofs.«164840_j74955769249952_1_alg».proof.Proof.Stages
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments as launched, at their literal types -/

abbrev a0 (c : Dev nD) : IVec S65536 32 := m ((c.tc : Thread nD τ).loc main_arg0)
abbrev a1 (c : Dev nD) : IVec S1048576 32 := m ((c.tc : Thread nD τ).loc main_arg1)
abbrev a2 (c : Dev nD) : IVec S1048576 32 := m ((c.tc : Thread nD τ).loc main_arg2)
abbrev a3 (c : Dev nD) : IVec S4096 32 := m ((c.tc : Thread nD τ).loc main_arg3)
abbrev a4 (c : Dev nD) : IVec S4096 32 := m ((c.tc : Thread nD τ).loc main_arg4)
abbrev a5 (c : Dev nD) : FVec Ideal S54012x256 .f32 := m ((c.tc : Thread nD τ).loc main_arg5)
abbrev a6 (c : Dev nD) : FVec Ideal S256x32 .f32 := m ((c.tc : Thread nD τ).loc main_arg6)
abbrev a7 (c : Dev nD) : FVec Ideal S32 .f32 := m ((c.tc : Thread nD τ).loc main_arg7)
abbrev a8 (c : Dev nD) : FVec Ideal S32x256 .f32 := m ((c.tc : Thread nD τ).loc main_arg8)
abbrev a9 (c : Dev nD) : FVec Ideal S256 .f32 := m ((c.tc : Thread nD τ).loc main_arg9)
abbrev a10 (c : Dev nD) : FVec Ideal S512x256 .f32 := m ((c.tc : Thread nD τ).loc main_arg10)
abbrev a11 (c : Dev nD) : FVec Ideal S256 .f32 := m ((c.tc : Thread nD τ).loc main_arg11)

/-! ## An argument's buffer at each boundary still holds its launch contents -/

/-- The arguments read after the first stretch of host operations: by a region as a window, or by a later stretch. -/
def keptA : List (Ref sig .tc) :=
  [main_arg1, main_arg2, main_arg3, main_arg4, main_arg6, main_arg8, main_arg9, main_arg10, main_arg11]

/-- Those still read after the first region (which has taken its weight). -/
def keptB : List (Ref sig .tc) :=
  [main_arg1, main_arg2, main_arg3, main_arg4, main_arg8, main_arg9, main_arg10, main_arg11]

/-- Those still read after the second region. -/
def keptC : List (Ref sig .tc) := [main_arg3, main_arg4, main_arg10, main_arg11]

theorem mem_keptA {b : Ref sig .tc} (hb : b ∈ keptA) :
    b = main_arg1 ∨ b = main_arg2 ∨ b = main_arg3 ∨ b = main_arg4 ∨ b = main_arg6 ∨ b = main_arg8 ∨ b = main_arg9
      ∨ b = main_arg10 ∨ b = main_arg11 := by
  simpa [keptA] using hb

theorem mem_keptB {b : Ref sig .tc} (hb : b ∈ keptB) :
    b = main_arg1 ∨ b = main_arg2 ∨ b = main_arg3 ∨ b = main_arg4 ∨ b = main_arg8 ∨ b = main_arg9
      ∨ b = main_arg10 ∨ b = main_arg11 := by
  simpa [keptB] using hb

theorem mem_keptC {b : Ref sig .tc} (hb : b ∈ keptC) :
    b = main_arg3 ∨ b = main_arg4 ∨ b = main_arg10 ∨ b = main_arg11 := by
  simpa [keptC] using hb

/-- After the first stretch. -/
theorem W1_kept (c : Dev nD) (b : Ref sig .tc) (hb : b ∈ keptA) :
    W1 m ρ c (Proc.devRef .tc b) = m ((c.tc : Thread nD τ).loc b) := by
  rcases mem_keptA hb with rfl | rfl | rfl | rfl | rfl | rfl | rfl | rfl | rfl <;>
    (show after hostOps0 (W0 m ρ c) _ = _; dsimp only [hostOps0]; after_results <;> rfl)

/-- After the first region. -/
theorem W2_kept (c : Dev nD) (b : Ref sig .tc) (hb : b ∈ keptB) :
    W2 m ρ c (Proc.devRef .tc b) = m ((c.tc : Thread nD τ).loc b) := by
  rcases mem_keptB hb with rfl | rfl | rfl | rfl | rfl | rfl | rfl | rfl <;>
    exact (W2_of_ne m ρ c _ (by decide)).trans (W1_kept m ρ c _ (by decide))

/-- After the second stretch. -/
theorem W3_kept (c : Dev nD) (b : Ref sig .tc) (hb : b ∈ keptB) :
    W3 m ρ c (Proc.devRef .tc b) = m ((c.tc : Thread nD τ).loc b) := by
  refine Eq.trans ?_ (W2_kept m ρ c b hb)
  rcases mem_keptB hb with rfl | rfl | rfl | rfl | rfl | rfl | rfl | rfl <;>
    (show after hostOps1 (W2 m ρ c) _ = _; dsimp only [hostOps1]; after_results <;> rfl)

/-- After the second region. -/
theorem W4_kept (c : Dev nD) (b : Ref sig .tc) (hb : b ∈ keptC) :
    W4 m ρ c (Proc.devRef .tc b) = m ((c.tc : Thread nD τ).loc b) := by
  rcases mem_keptC hb with rfl | rfl | rfl | rfl <;>
    exact (W4_of_ne m ρ c _ (by decide)).trans (W3_kept m ρ c _ (by decide))

/-- After the third stretch. -/
theorem W5_kept (c : Dev nD) (b : Ref sig .tc) (hb : b ∈ keptC) :
    W5 m ρ c (Proc.devRef .tc b) = m ((c.tc : Thread nD τ).loc b) := by
  refine Eq.trans ?_ (W4_kept m ρ c b hb)
  rcases mem_keptC hb with rfl | rfl | rfl | rfl <;>
    (show after hostOps2 (W4 m ρ c) _ = _; dsimp only [hostOps2]; after_results <;> rfl)

/-! ## The first layer -/

set_option maxHeartbeats 1000000 in
/-- Entering the first region, its left operand is the neighbour sum of the node features. -/
theorem agg1_in (c : Dev nD) :
    (W1 m ρ c (Proc.devRef .tc main_v16) : FVec Ideal S65536x256 .f32) = Cert.Stages.agg1 (a0 m c) (a1 m c) (a2 m c) (a5 m c) := by
  show after hostOps0 (W0 m ρ c) (Proc.devRef .tc main_v16) = _
  dsimp only [hostOps0]
  after_results_simp
  unfold Cert.Stages.agg1 Cert.Stages.feat Cert.Stages.srcCol Cert.Stages.dstCol
  rfl

/-- and its bias row is the first bias reshaped. -/
theorem bias1_in (c : Dev nD) :
    (W1 m ρ c (Proc.devRef .tc main_v17) : FVec Ideal S1x32 .f32) = shapeCast S1x32 (a7 m c) shapeCasts_S32_S1x32 := by
  show after hostOps0 (W0 m ρ c) (Proc.devRef .tc main_v17) = _
  dsimp only [hostOps0]
  after_results <;> rfl

/-- Leaving the first region, its result array holds the first layer of that neighbour sum. -/
theorem hidden_out (c : Dev nD) :
    (W2 m ρ c (Proc.devRef .tc main_v18) : FVec Ideal S65536x32 .f32)
      = Cert.Stages.hidden (Cert.Stages.agg1 (a0 m c) (a1 m c) (a2 m c) (a5 m c)) (a6 m c) (a7 m c) :=
  (W2_arr m ρ c 3).trans ((Cert.KernelIdeal.Layer0.arr_of (V1 m ρ) c _ _ _ (agg1_in m ρ c)
      (W1_kept m ρ c main_arg6 (by decide)) (bias1_in m ρ c)).trans
    (Cert.Stages.hidden_eq _ _ _ _).symm)

/-! ## The second layer -/

/-- Entering the second region, its left operand is the neighbour sum of the first layer's result. -/
theorem agg2_in (c : Dev nD) :
    (W3 m ρ c (Proc.devRef .tc main_v28) : FVec Ideal S65536x32 .f32)
      = Cert.Stages.agg2 (Cert.Stages.hidden (Cert.Stages.agg1 (a0 m c) (a1 m c) (a2 m c) (a5 m c)) (a6 m c) (a7 m c)) (a1 m c) (a2 m c) := by
  show after hostOps1 (W2 m ρ c) (Proc.devRef .tc main_v28) = _
  dsimp only [hostOps1]
  after_results
  rw [hidden_out m ρ c, W2_kept m ρ c main_arg1 (by decide), W2_kept m ρ c main_arg2 (by decide)]
  unfold Cert.Stages.agg2 Cert.Stages.srcCol Cert.Stages.dstCol
  rfl

theorem bias2_in (c : Dev nD) :
    (W3 m ρ c (Proc.devRef .tc main_v29) : FVec Ideal S1x256 .f32) = shapeCast S1x256 (a9 m c) shapeCasts_S256_S1x256 := by
  show after hostOps1 (W2 m ρ c) (Proc.devRef .tc main_v29) = _
  dsimp only [hostOps1]
  after_results
  rw [W2_kept m ρ c main_arg9 (by decide)]
  rfl

/-- Leaving the second region, its result array holds the second layer of that neighbour sum. -/
theorem second_out (c : Dev nD) :
    (W4 m ρ c (Proc.devRef .tc main_v30) : FVec Ideal S65536x256 .f32)
      = Cert.Stages.second (Cert.Stages.agg2 (Cert.Stages.hidden (Cert.Stages.agg1 (a0 m c) (a1 m c) (a2 m c) (a5 m c)) (a6 m c) (a7 m c)) (a1 m c) (a2 m c)) (a8 m c) (a9 m c) :=
  (W4_arr m ρ c 3).trans ((Cert.KernelIdeal.Layer1.arr_of (V3 m ρ) c _ _ _ (agg2_in m ρ c)
      (W3_kept m ρ c main_arg8 (by decide)) (bias2_in m ρ c)).trans
    (Cert.Stages.second_eq _ _ _ _).symm)

/-! ## The last layer -/

set_option maxHeartbeats 1000000 in
/-- One gene list's rows of the second layer's result, entering the last region. -/
theorem gene1_in (c : Dev nD) :
    (W5 m ρ c (Proc.devRef .tc main_v37) : FVec Ideal S4096x256 .f32)
      = Host.gather gather_S65536x256_S4096x1_S4096x256_1_0_n_n_0_1_1256 (W4 m ρ c (Proc.devRef .tc main_v30)) (Cert.Stages.geneCol (a3 m c)) := by
  show after hostOps2 (W4 m ρ c) (Proc.devRef .tc main_v37) = _
  dsimp only [hostOps2]
  after_results_simp
  rw [W4_kept m ρ c main_arg3 (by decide)]
  unfold Cert.Stages.geneCol
  rfl

set_option maxHeartbeats 1000000 in
/-- The other gene list's rows. -/
theorem gene2_in (c : Dev nD) :
    (W5 m ρ c (Proc.devRef .tc main_v44) : FVec Ideal S4096x256 .f32)
      = Host.gather gather_S65536x256_S4096x1_S4096x256_1_0_n_n_0_1_1256 (W4 m ρ c (Proc.devRef .tc main_v30)) (Cert.Stages.geneCol (a4 m c)) := by
  show after hostOps2 (W4 m ρ c) (Proc.devRef .tc main_v44) = _
  dsimp only [hostOps2]
  after_results_simp
  rw [W4_kept m ρ c main_arg4 (by decide)]
  unfold Cert.Stages.geneCol
  rfl

/-- Entering the last region, its left operand is the gene pairs gathered from the second layer's result. -/
theorem pairs_in (c : Dev nD) :
    (W5 m ρ c (Proc.devRef .tc main_v45) : FVec Ideal S4096x512 .f32)
      = Cert.Stages.pairs (Cert.Stages.second (Cert.Stages.agg2 (Cert.Stages.hidden (Cert.Stages.agg1 (a0 m c) (a1 m c) (a2 m c) (a5 m c)) (a6 m c) (a7 m c)) (a1 m c) (a2 m c)) (a8 m c) (a9 m c)) (a3 m c) (a4 m c) := by
  have h1 := gene1_in m ρ c
  have h2 := gene2_in m ρ c
  rw [second_out m ρ c] at h1 h2
  show concatenate S4096x512 1 [⟨S4096x256, W5 m ρ c (Proc.devRef .tc main_v37)⟩, ⟨S4096x256, W5 m ρ c (Proc.devRef .tc main_v44)⟩]
    concatenates_S4096x256_S4096x256_S4096x512_d1 = _
  rw [h1, h2]
  unfold Cert.Stages.pairs
  rfl

theorem bias3_in (c : Dev nD) :
    (W5 m ρ c (Proc.devRef .tc main_v46) : FVec Ideal S1x256 .f32) = shapeCast S1x256 (a11 m c) shapeCasts_S256_S1x256 := by
  show after hostOps2 (W4 m ρ c) (Proc.devRef .tc main_v46) = _
  dsimp only [hostOps2]
  after_results
  rw [W4_kept m ρ c main_arg11 (by decide)]
  rfl

/-- THE RESULT ARRAY at the last boundary: the whole computation of the arguments as launched. -/
theorem result_out (c : Dev nD) :
    (W6 m ρ c (Proc.devRef .tc main_v47) : FVec Ideal S4096x256 .f32)
      = Cert.Stages.result (a0 m c) (a1 m c) (a2 m c) (a3 m c) (a4 m c) (a5 m c) (a6 m c) (a7 m c) (a8 m c) (a9 m c) (a10 m c) (a11 m c) :=
  (W6_arr m ρ c 3).trans ((Cert.KernelIdeal.Layer2.arr_of (V5 m ρ) c _ _ _ (pairs_in m ρ c)
      (W5_kept m ρ c main_arg10 (by decide)) (bias3_in m ρ c)).trans
    (Cert.Stages.final_eq _ _ _ _).symm)

end Cert.KernelIdeal.ResultValue

end
-- ==== Proof.lean ====
/-
  A two-layer graph convolution with a pair classifier on top, as a Pallas program against its jnp reference, equal
  over the extended reals.

  Both programs look up node features in an embedding table, sum each node's in-neighbours' rows (a gather by the
  edges' sources and a scatter-add by their destinations), apply a dense layer 256 → 32 clamped at zero, sum
  neighbours again, apply a dense layer 32 → 256, gather 4096 pairs of rows side by side and apply a dense layer
  512 → 256 clamped at zero.  The lookups and the neighbour sums are the same host operations on the same index arrays
  in both.  They differ in the dense layers: the reference takes one matrix product of the whole array, adds the
  bias broadcast as a row and takes the maximum with zero; the kernel cuts the rows into blocks (4096, 4096 and 1024
  rows), rounds each block and the weight to bf16 (on the extended reals a change of format is the identity), takes the
  block's product into a zero accumulator, adds the bias row and takes the maximum with a zero splat.  An entry of
  `x · w + b` is `∑ k, x (r, k) * w (k, c) + b c` and depends on row `r` of `x` only, so the blocks of the kernel's
  result are the blocks of the reference's: the two results are one function of the arguments.  No law beyond the
  sum's own definition is used (no reordering, no distributivity), so finiteness of the inputs plays no part.

  `preserves`: the idealization rewrote nothing.  The frames of the two Pallas programs are the generated ones; the
  reference's frame is its generated run with the result forgotten.
-/
import proofs.«164840_j74955769249952_1_alg».proof.Defs
import proofs.«164840_j74955769249952_1_alg».proof.Proof.Gen.Kernel
import proofs.«164840_j74955769249952_1_alg».proof.Proof.Gen.Kernel.Skeleton
import proofs.«164840_j74955769249952_1_alg».proof.Proof.Gen.Kernel.Launch
import proofs.«164840_j74955769249952_1_alg».proof.Proof.Gen.Kernel.Points
import proofs.«164840_j74955769249952_1_alg».proof.Proof.Gen.Kernel.Frame
import proofs.«164840_j74955769249952_1_alg».proof.Proof.Gen.KernelIdeal
import proofs.«164840_j74955769249952_1_alg».proof.Proof.Gen.KernelIdeal.Skeleton
import proofs.«164840_j74955769249952_1_alg».proof.Proof.Gen.KernelIdeal.Launch
import proofs.«164840_j74955769249952_1_alg».proof.Proof.Gen.KernelIdeal.Points
import proofs.«164840_j74955769249952_1_alg».proof.Proof.Gen.KernelIdeal.Frame
import proofs.«164840_j74955769249952_1_alg».proof.Proof.Gen.ReferenceIdeal
import proofs.«164840_j74955769249952_1_alg».proof.Proof.Gen.Pre_finite_inputs
import proofs.«164840_j74955769249952_1_alg».proof.Proof.Gen.ReferenceIdeal.Run
import proofs.«164840_j74955769249952_1_alg».proof.Proof.KernelRun
import proofs.«164840_j74955769249952_1_alg».proof.Proof.KernelValue
import proofs.«164840_j74955769249952_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the one composition of dense layers, lookups and neighbour sums of the
    arguments: the kernel's by its regions' values read back through @main, the reference's by its run's own term. -/
theorem algebraic : Cert.algebraic_KernelIdeal_ReferenceIdeal := by
  intro m ρ m' ρ' _ hagree
  refine ⟨fun c => Cert.KernelIdeal.Gen.W6 m ρ c (Proc.devRef .tc Cert.KernelIdeal.main_v47),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.Stages.result_eq m' c).trans ?_).trans (Cert.KernelIdeal.ResultValue.result_out m ρ c).symm
  obtain ⟨h0, h1, h2, h3, h4, h5, h6, h7, h8, h9, h10, h11⟩ := hagree c
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
